-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048 : Shape := ⟨2, ![4, 2048]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x4096 .f32) (main_arg5 : FVec F S4096 .f32) (main_arg6 : FVec F S4096x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x2048 .f32) (main_arg2 : FVec F S1024 .f32) (main_arg3 : FVec F S1024 .f32) (main_arg4 : FVec F S1024x4096 .f32) (main_arg5 : FVec F S4096 .f32) (main_arg6 : FVec F S4096x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S4x2048 : Shape := ⟨2, ![4, 2048]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8192x1024 : Shape := ⟨2, ![8192, 1024]⟩
abbrev S1x1024 : Shape := ⟨2, ![1, 1024]⟩
abbrev S1x4096 : Shape := ⟨2, ![1, 4096]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 17
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x4096, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S8192x1024, .f32⟩
  | .hbm, ⟨16, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x2048x1024_S8192x1024 : S4x2048x1024.ShapeCasts S8192x1024
  shapeCasts_S1024_S1x1024 : S1024.ShapeCasts S1x1024
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S8192x1024_S4x2048x1024 : S8192x1024.ShapeCasts S4x2048x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048 : Shape := ⟨2, ![4, 2048]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S4x2048x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.KernelProducts.lean ====
/-
  The two matrix products of the kernel body, read at one entry.

  Both products contract the left operand's columns with the right operand's rows and have no batch axis, so the entry
  `(p, n)` of a product into the zero accumulator is `Σₖ lhs (p, k) · rhs (k, n)` over the extended reals: first the
  operand indices of the contraction are named coordinate by coordinate, then the contraction index is re-indexed by
  `Fin K`.
-/
import proofs.«133485_j13675175870789_1_alg».proof.Proof.Gen.KernelIdeal
import Idealize.ShloMosaic.PureOps.Ideal.Laws
import Idealize.ShloMosaic.Lib.ValueIdx

noncomputable section

open scoped BigOperators

namespace Cert.KernelIdeal.Products

open Cert.KernelIdeal Idealize.ShloMosaic Idealize.ShloMosaic.ValueIdx

/-- The left operand's row is the output's row. -/
theorem lhs_up_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- The left operand's column is the contracted coordinate. -/
theorem lhs_up_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- The right operand's row is the contracted coordinate. -/
theorem rhs_up_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- The right operand's column is the output's column. -/
theorem rhs_up_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The product into the zero accumulator at the entry `(p, n)`: the sum over the contracted coordinate `k` of
    `lhs (p, k) · rhs (k, n)`. -/
theorem matmul_up_apply (a : FVec Ideal S256x1024 .bf16) (b : FVec Ideal S1024x4096 .bf16) (p : Fin 256) (n : Fin 4096) :
    matmul dot_S256x1024_S1024x4096_S256x4096_1_0_0_1_n_n none a b (constant S256x4096 .f32 0x00000000#32) (ix2 p n)
      = ∑ k : Fin 1024, a (ix2 p k) * b (ix2 k n) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p n) ((ValueIdx.contrEquiv1 dot_S256x1024_S1024x4096_S256x4096_1_0_0_1_n_n 1024 rfl rfl).symm k) = ix2 p k := funext fun ax => Fin.ext (by
    match ax with
    | ⟨0, _⟩ => exact lhs_up_0 _ _
    | ⟨1, _⟩ => exact (lhs_up_1 _ _).trans hk)
  have er : dot_S256x1024_S1024x4096_S256x4096_1_0_0_1_n_n.rhsIdx (ix2 p n) ((ValueIdx.contrEquiv1 dot_S256x1024_S1024x4096_S256x4096_1_0_0_1_n_n 1024 rfl rfl).symm k) = ix2 k n := funext fun ax => Fin.ext (by
    match ax with
    | ⟨0, _⟩ => exact (rhs_up_0 _ _).trans hk
    | ⟨1, _⟩ => exact rhs_up_1 _ _)
  rw [el, er]

/-- The left operand's row is the output's row. -/
theorem lhs_down_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- The left operand's column is the contracted coordinate. -/
theorem lhs_down_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
/-- The right operand's row is the contracted coordinate. -/
theorem rhs_down_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
/-- The right operand's column is the output's column. -/
theorem rhs_down_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product into the zero accumulator at the entry `(p, n)`: the sum over the contracted coordinate `k` of
    `lhs (p, k) · rhs (k, n)`. -/
theorem matmul_down_apply (a : FVec Ideal S256x4096 .bf16) (b : FVec Ideal S4096x1024 .bf16) (p : Fin 256) (n : Fin 1024) :
    matmul dot_S256x4096_S4096x1024_S256x1024_1_0_0_1_n_n none a b (constant S256x1024 .f32 0x00000000#32) (ix2 p n)
      = ∑ k : Fin 4096, a (ix2 p k) * b (ix2 k n) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p n) ((ValueIdx.contrEquiv1 dot_S256x4096_S4096x1024_S256x1024_1_0_0_1_n_n 4096 rfl rfl).symm k) = ix2 p k := funext fun ax => Fin.ext (by
    match ax with
    | ⟨0, _⟩ => exact lhs_down_0 _ _
    | ⟨1, _⟩ => exact (lhs_down_1 _ _).trans hk)
  have er : dot_S256x4096_S4096x1024_S256x1024_1_0_0_1_n_n.rhsIdx (ix2 p n) ((ValueIdx.contrEquiv1 dot_S256x4096_S4096x1024_S256x1024_1_0_0_1_n_n 4096 rfl rfl).symm k) = ix2 k n := funext fun ax => Fin.ext (by
    match ax with
    | ⟨0, _⟩ => exact (rhs_down_0 _ _).trans hk
    | ⟨1, _⟩ => exact rhs_down_1 _ _)
  rw [el, er]

end Cert.KernelIdeal.Products

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.RowSpec.lean ====
/-
  The transition block of one token, over the extended reals.

  A token is a row `x` of 1024 channels. The block normalises the row (subtract the mean, scale by the inverse
  square root of the variance plus a small constant, then an affine map with gain `g` and offset `b`), applies a
  linear map to 4096 channels with bias, clips below at zero, and applies a second linear map back to 1024 channels
  with bias:

    mean x      = (Σₖ xₖ) / 1024
    var x       = (Σₖ (xₖ − mean x)²) / 1024
    norm x k    = (xₖ − mean x) · (var x + ε)^(−1/2) · gₖ + bₖ
    hidden x f  = max (Σₖ norm x k · w1 k f + b1 f) 0
    out x c     = Σ_f hidden x f · w2 f c + b2 c

  The three float literals that occur (0, 1024 and ε, the single-precision neighbour of 10⁻⁵) are kept as their bit
  patterns read at the ideal instance; both programs carry the same patterns, so none is ever evaluated here.
-/
import Idealize.ShloMosaic.PureOps.Ideal.Laws

noncomputable section

open scoped BigOperators

namespace Cert.Transition

open Idealize.ShloMosaic

/-- The pattern of zero, of 1024, and of the normalisation's small constant, as extended reals. -/
abbrev lit0 : EReal := Ideal.ofBits .f32 0x00000000#32
abbrev litN : EReal := Ideal.ofBits .f32 0x44800000#32
abbrev litEps : EReal := Ideal.ofBits .f32 0x3727C5AC#32

/-- The mean of a row: its sum divided by the channel count. -/
def rowMean (x : Fin 1024 → EReal) : EReal := Ideal.div (∑ k : Fin 1024, x k) litN

/-- The row with its mean subtracted. -/
def rowCentred (x : Fin 1024 → EReal) (k : Fin 1024) : EReal := x k - rowMean x

/-- The variance of a row: the mean of the squares of the centred row. -/
def rowVar (x : Fin 1024 → EReal) : EReal := Ideal.div (∑ k : Fin 1024, rowCentred x k * rowCentred x k) litN

/-- The normalised row under the affine map `(g, b)`. -/
def rowNorm (x g b : Fin 1024 → EReal) (k : Fin 1024) : EReal :=
  rowCentred x k * Ideal.rsqrt (rowVar x + litEps) * g k + b k

/-- The hidden layer: the first linear map, its bias, clipped below at zero. -/
def rowHidden (x g b : Fin 1024 → EReal) (w1 : Fin 1024 → Fin 4096 → EReal) (b1 : Fin 4096 → EReal) (f : Fin 4096) : EReal :=
  max ((∑ k : Fin 1024, rowNorm x g b k * w1 k f) + b1 f) lit0

/-- The block's output for the row: the second linear map of the hidden layer, and its bias. -/
def rowOut (x g b : Fin 1024 → EReal) (w1 : Fin 1024 → Fin 4096 → EReal) (b1 : Fin 4096 → EReal)
    (w2 : Fin 4096 → Fin 1024 → EReal) (b2 : Fin 1024 → EReal) (c : Fin 1024) : EReal :=
  (∑ f : Fin 4096, rowHidden x g b w1 b1 f * w2 f c) + b2 c

end Cert.Transition

end
-- ==== Proof.BlockPayload.lean ====
/-
  What the kernel body stores for one block of 256 tokens, read at one entry.

  The body's arithmetic is one pure term of the blocks it loads. Its pointwise operations are read at an index by
  definition; the four that are not — the lane sum kept as a column, the column and row broadcasts, and the two matrix
  products — each have one lemma stated at an index given by its coordinates. Read so, row `p` of the stored block is the
  transition block's output (Proof/RowSpec.lean) for row `p` of the loaded token block: the mean and the variance are
  the row's lane sums over 1024, every entry of the row sees the row's one statistic, and each matrix product into
  the zero accumulator is the plain sum over the contracted channel.
-/
import proofs.«133485_j13675175870789_1_alg».proof.Proof.Gen.KernelIdeal.Frame
import proofs.«133485_j13675175870789_1_alg».proof.Proof.KernelProducts
import proofs.«133485_j13675175870789_1_alg».proof.Proof.LibKeepdims
import proofs.«133485_j13675175870789_1_alg».proof.Proof.LibRowReduce
import proofs.«133485_j13675175870789_1_alg».proof.Proof.RowSpec
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx Cert.Transition

/-- The inverse square root of a vector, entry by entry. -/
theorem rsqrt_apply {s : Shape} {φ : FTy} (a : FVec Ideal s φ) (i : s.Idx) : rsqrt a i = Ideal.rsqrt (a i) := rfl

/-- A row statistic as the body computes it — the lane sum of a 256 × 1024 vector, kept as a column, divided by the
    channel count — read at row `p`: the sum of that row's entries over 1024. -/
theorem colStat_apply (v : FVec Ideal S256x1024 .f32) (hφ : FKind.Formats .f32)
    (hacc : (0x00000000#32 : BitVec 32) = 0x00000000#32) (p : Fin 256) :
    divf (shapeCast S256x1 (multiReduction .add [1] S256 v 0x00000000#32 reduces_S256x1024_S256 hφ hacc) shapeCasts_S256_S256x1)
        (broadcast S256x1 (FloatOps.ofBits .f32 0x44800000#32)) (ix2 p (0 : Fin 1))
      = Ideal.div (∑ j : Fin 1024, v (ix2 p j)) litN := by
  show Ideal.div (shapeCast S256x1 _ shapeCasts_S256_S256x1 (ix2 p (0 : Fin 1))) litN = _
  refine congrArg (Ideal.div · litN) ?_
  refine (Cert.Keepdims.shapeCast_a_a1_apply _ shapeCasts_S256_S256x1 p 0).trans ?_
  exact Idealize.ShloMosaic.RowReduce.multiReduction_add_row v _ reduces_S256x1024_S256 hφ hacc p

/-- The hidden layer as the body computes it, at row `p` and hidden channel `f`: the row is normalised with its own
    mean and variance, multiplied by the first weight matrix, shifted by the first bias and clipped below at zero. The
    row statistic occurs three times — the mean under the centred entry, the variance under the inverse square root,
    and the mean again inside the variance's summands — and is read each time as the row's sum over 1024. -/
theorem pay2_apply (v0 : FVec Ideal S256x1024 .f32) (v18 v22 : FVec Ideal S1x1024 .f32) (v27 : FVec Ideal S1024x4096 .bf16)
    (v30 : FVec Ideal S1x4096 .f32) (p : Fin 256) (f : Fin 4096) :
    k0_pay2 (F := Ideal) v0 v18 v22 v27 v30 (ix2 p f)
      = rowHidden (fun k => v0 (ix2 p k)) (fun k => v18 (ix2 (0 : Fin 1) k)) (fun k => v22 (ix2 (0 : Fin 1) k))
          (fun k n => v27 (ix2 k n)) (fun n => v30 (ix2 (0 : Fin 1) n)) f := by
  unfold k0_pay2
  simp only [truncf_apply, maximumf_apply, addf_apply, subf_apply, mulf_apply, broadcast_apply, shapeCast_self,
    Products.matmul_up_apply, broadcastTo_1b_ab_apply, Cert.Keepdims.broadcastTo_a1_ab_apply, rsqrt_apply]
  rw [colStat_apply v0 _ _ p, colStat_apply _ _ _ p]
  simp only [mulf_apply, subf_apply, Cert.Keepdims.broadcastTo_a1_ab_apply]
  rw [colStat_apply v0 _ _ p]
  rfl

/-- The second linear map and its bias at one entry: the sum over the hidden channels and the bias of the channel. -/
theorem pay1_apply (h : FVec Ideal S256x4096 .bf16) (w2 : FVec Ideal S4096x1024 .bf16) (v40 : FVec Ideal S1x1024 .f32)
    (p : Fin 256) (c : Fin 1024) :
    k0_pay1 (F := Ideal) h w2 (constant S256x1024 .f32 0x00000000#32) v40 (ix2 p c)
      = (∑ n : Fin 4096, h (ix2 p n) * w2 (ix2 n c)) + v40 (ix2 (0 : Fin 1) c) := by
  unfold k0_pay1
  simp only [addf_apply, shapeCast_self, Products.matmul_down_apply, broadcastTo_1b_ab_apply]

/-- The second weight matrix is loaded as it is. -/
theorem pay3_eq (v37 : FVec Ideal S4096x1024 .bf16) : k0_pay3 (F := Ideal) v37 = v37 := by
  unfold k0_pay3; exact shapeCast_self _ _

theorem hz : (![0, 0] : Fin 2 → Nat) = fun _ => 0 := funext fun a => by fin_cases a <;> rfl

/-- WHAT THE BODY LEAVES in the output block, at row `p` and channel `c`: the transition block's output for row `p`
    of the token block, with the parameter blocks read through their leading unit axis. -/
theorem out_apply (x0 : Vec Ideal S256x1024 .f32) (x1 x2 : Vec Ideal S1x1024 .f32) (x3 : Vec Ideal S1024x4096 .bf16)
    (x4 : Vec Ideal S1x4096 .f32) (x5 : Vec Ideal S4096x1024 .bf16) (x6 : Vec Ideal S1x1024 .f32) (p : Fin 256) (c : Fin 1024) :
    out0_7 (F := Ideal) x0 x1 x2 x3 x4 x5 x6 (ix2 p c)
      = rowOut (fun k => x0 (ix2 p k)) (fun k => x1 (ix2 (0 : Fin 1) k)) (fun k => x2 (ix2 (0 : Fin 1) k))
          (fun k n => x3 (ix2 k n)) (fun n => x4 (ix2 (0 : Fin 1) n)) (fun n c => x5 (ix2 n c)) (fun c => x6 (ix2 (0 : Fin 1) c)) c := by
  unfold out0_7
  rw [View.canon_unit_zero hz]
  simp only [View.ld_unit_zero (S := S256x1024) hz, View.ld_unit_zero (S := S1x1024) hz, View.ld_unit_zero (S := S1024x4096) hz,
    View.ld_unit_zero (S := S1x4096) hz, View.ld_unit_zero (S := S4096x1024) hz]
  rw [pay3_eq, pay1_apply]
  simp only [pay2_apply]
  rfl

end Cert.KernelIdeal.BlockValue

end
-- ==== Proof.BlockSpec.lean ====
/-
  The transition block over a whole batch: the result at `(b, s, c)` is the block's output for the token row
  `act[b, s, ·]`, channel `c`, as one function of the seven arrays the block reads (the activations, the affine gain and
  offset of the normalisation, and the weights and biases of the two linear maps).
-/
import proofs.«133485_j13675175870789_1_alg».proof.Proof.RowSpec
import Idealize.ShloMosaic.Lib.ValueIdx

noncomputable section

namespace Cert.Transition

open Idealize.ShloMosaic Idealize.ShloMosaic.ValueIdx

/-- The block's output over the batch, index by index. -/
def blockOut (act : (⟨3, ![4, 2048, 1024]⟩ : Shape).Idx → EReal) (g b : (⟨1, ![1024]⟩ : Shape).Idx → EReal)
    (w1 : (⟨2, ![1024, 4096]⟩ : Shape).Idx → EReal) (b1 : (⟨1, ![4096]⟩ : Shape).Idx → EReal)
    (w2 : (⟨2, ![4096, 1024]⟩ : Shape).Idx → EReal) (b2 : (⟨1, ![1024]⟩ : Shape).Idx → EReal) :
    (⟨3, ![4, 2048, 1024]⟩ : Shape).Idx → EReal := fun i =>
  rowOut (fun k => act (ix3 (⟨(i 0).val, (i 0).isLt⟩ : Fin 4) (⟨(i 1).val, (i 1).isLt⟩ : Fin 2048) k))
    (fun k => g (ix1 k)) (fun k => b (ix1 k)) (fun k n => w1 (ix2 k n)) (fun n => b1 (ix1 n))
    (fun n c => w2 (ix2 n c)) (fun c => b2 (ix1 c)) (⟨(i 2).val, (i 2).isLt⟩ : Fin 1024)

end Cert.Transition

end
-- ==== Proof.ArrayValue.lean ====
/-
  The array of 8192 token rows after the kernel's run, and the program's result.
-/
import proofs.«133485_j13675175870789_1_alg».proof.Proof.Gen.KernelIdeal.Frame
import proofs.«133485_j13675175870789_1_alg».proof.Proof.BlockPayload
import proofs.«133485_j13675175870789_1_alg».proof.Proof.BlockSpec
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.Transition
open Idealize.ShloMosaic.Pipeline (Dat)

variable (m : (ℓ : Loc nD τ sig) → Buf (Elt Ideal) ℓ) (ρ : Dev nD → PrngReg)

/-- The block's output for every one of the 8192 token rows of `x`: entry `(r, c)` is the output of row `r`,
    channel `c`, the parameters read through their leading unit axis. -/
def rows (x : S8192x1024.Idx → EReal) (g b : S1x1024.Idx → EReal) (w1 : S1024x4096.Idx → EReal) (b1 : S1x4096.Idx → EReal)
    (w2 : S4096x1024.Idx → EReal) (b2 : S1x1024.Idx → EReal) : S8192x1024.Idx → EReal := fun i =>
  rowOut (fun k => x (ix2 (⟨(i 0).val, (i 0).isLt⟩ : Fin 8192) k)) (fun k => g (ix2 (0 : Fin 1) k)) (fun k => b (ix2 (0 : Fin 1) k))
    (fun k n => w1 (ix2 k n)) (fun n => b1 (ix2 (0 : Fin 1) n)) (fun n c => w2 (ix2 n c)) (fun c => b2 (ix2 (0 : Fin 1) c))
    (⟨(i 1).val, (i 1).isLt⟩ : Fin 1024)

/-- The same at an index given by its coordinates. -/
theorem rows_apply (x : S8192x1024.Idx → EReal) (g b : S1x1024.Idx → EReal) (w1 : S1024x4096.Idx → EReal) (b1 : S1x4096.Idx → EReal)
    (w2 : S4096x1024.Idx → EReal) (b2 : S1x1024.Idx → EReal) (i : S8192x1024.Idx) (r : Fin 8192) (c : Fin 1024)
    (hr : (i 0).val = r.val) (hc : (i 1).val = c.val) :
    rows x g b w1 b1 w2 b2 i
      = rowOut (fun k => x (ix2 r k)) (fun k => g (ix2 (0 : Fin 1) k)) (fun k => b (ix2 (0 : Fin 1) k))
          (fun k n => w1 (ix2 k n)) (fun n => b1 (ix2 (0 : Fin 1) n)) (fun n c => w2 (ix2 n c)) (fun c => b2 (ix2 (0 : Fin 1) c)) c := by
  have er : (⟨(i 0).val, (i 0).isLt⟩ : Fin 8192) = r := Fin.ext hr
  have ec : (⟨(i 1).val, (i 1).isLt⟩ : Fin 1024) = c := Fin.ext hc
  unfold rows
  rw [er, ec]

/-- The rows of the operands as the region finds them. -/
abbrev rowsAt (c : Dev nD) : S8192x1024.Idx → EReal :=
  rows (V m c main_v0) (V m c main_v1) (V m c main_v2) (V m c main_v5) (V m c main_v3) (V m c main_v6) (V m c main_v4)

/-- The index maps over the 32 grid points: the token window and the output window move together along the rows, one
    block per point, and every parameter window stays at block zero. -/
theorem idx_facts : ∀ t : Fin cfg0.N,
    win0_0.index t (0 : Fin 2) = win0_7.index t (0 : Fin 2) ∧ win0_0.index t (1 : Fin 2) = 0
    ∧ win0_7.index t (0 : Fin 2) ≤ 31 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block of rows is some point's. -/
theorem idx_onto : ∀ q : Fin 32, ∃ t : Fin cfg0.N, win0_7.index t = ![q.val, 0] :=
  (by decide +kernel : ∀ q : Fin 32, ∃ t : Fin grid0.N, win0_7.index t = ![q.val, 0])

/-- A parameter window's block is the whole parameter array, at every point. -/
theorem blk1 (c : Dev nD) (t : Fin cfg0.N) : iblk m c 1 t = V m c main_v1 := by
  obtain ⟨-, -, -, -, e0, e1, -⟩ := idx_facts t
  funext y
  show V m c main_v1 (((cfg0.win 1).blk t).view.emb y) = V m c main_v1 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 1024 + 1 * (y 1).val = (y 1).val; omega

theorem blk2 (c : Dev nD) (t : Fin cfg0.N) : iblk m c 2 t = V m c main_v2 := by
  obtain ⟨-, -, -, -, -, -, e0, e1, -⟩ := idx_facts t
  funext y
  show V m c main_v2 (((cfg0.win 2).blk t).view.emb y) = V m c main_v2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega
theorem blk3 (c : Dev nD) (t : Fin cfg0.N) : iblk m c 3 t = V m c main_v5 := by
  obtain ⟨-, -, -, -, -, -, -, -, e0, e1, -⟩ := idx_facts t
  funext y
  show V m c main_v5 (((cfg0.win 3).blk t).view.emb y) = V m c main_v5 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega
theorem blk4 (c : Dev nD) (t : Fin cfg0.N) : iblk m c 4 t = V m c main_v3 := by
  obtain ⟨-, -, -, -, -, -, -, -, -, -, e0, e1, -⟩ := idx_facts t
  funext y
  show V m c main_v3 (((cfg0.win 4).blk t).view.emb y) = V m c main_v3 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 4096 + 1 * (y 1).val = (y 1).val; omega
theorem blk5 (c : Dev nD) (t : Fin cfg0.N) : iblk m c 5 t = V m c main_v6 := by
  obtain ⟨-, -, -, -, -, -, -, -, -, -, -, -, e0, e1, -⟩ := idx_facts t
  funext y
  show V m c main_v6 (((cfg0.win 5).blk t).view.emb y) = V m c main_v6 y
  refine congrArg _ (funext fun a => Fin.ext ?_)
  match a with
  | ⟨0, _⟩ => show win0_5.index t (0 : Fin 2) * 4096 + 1 * (y 0).val = (y 0).val; omega
  | ⟨1, _⟩ => show win0_5.index t (1 : Fin 2) * 1024 + 1 * (y 1).val = (y 1).val; omega
theorem blk6 (c : Dev nD) (t : Fin cfg0.N) : iblk m c 6 t = V m c main_v4 := by
  obtain ⟨-, -, -, -, -, -, -, -, -, -, -, -, -, -, e0, e1⟩ := idx_facts t
  funext y
  show V m c main_v4 (((cfg0.win 6).blk t).view.emb y) = V m c main_v4 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- The token window's block at point `t` holds the rows `256 t … 256 t + 255` of the token array. -/
theorem blk0 (c : Dev nD) (t : Fin cfg0.N) (p : Fin 256) (k : Fin 1024) (r : Fin 8192)
    (hr : r.val = win0_7.index t (0 : Fin 2) * 256 + p.val) : iblk m c 0 t (ix2 p k) = V m c main_v0 (ix2 r k) := by
  obtain ⟨e0, e1, -⟩ := idx_facts t
  show V m c main_v0 (((cfg0.win 0).blk t).view.emb (ix2 p k)) = V m c main_v0 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- WHAT POINT `t` WRITES BACK is block `t` of the rows' outputs. -/
theorem flushed_eq (c : Dev nD) (t : Fin cfg0.N) :
    (dats m 0 c).flushed 7 t = ((cfg0.win 7).blk t).view.read (Elt Ideal) (rowsAt m c) := by
  show (cfg0.win 7).cut (grid0.coords t) ((dats m 0 c).after 7 t) = _
  rw [after0_7, blk1, blk2, blk3, blk4, blk5, blk6]
  obtain ⟨-, -, e2, e3, -⟩ := idx_facts t
  funext j
  have hj0 : (j 0).val < 256 := (j 0).isLt
  have hj1 : (j 1).val < 1024 := (j 1).isLt
  have hj : j = ix2 (⟨(j 0).val, hj0⟩ : Fin 256) (⟨(j 1).val, hj1⟩ : Fin 1024) :=
    funext fun a => Fin.ext (by match a with | ⟨0, _⟩ => rfl | ⟨1, _⟩ => rfl)
  show out0_7 (iblk m c 0 t) (V m c main_v1) (V m c main_v2) (V m c main_v5) (V m c main_v3) (V m c main_v6) (V m c main_v4) j
    = rowsAt m c (((cfg0.win 7).blk t).view.emb j)
  refine (congrArg (out0_7 (iblk m c 0 t) (V m c main_v1) (V m c main_v2) (V m c main_v5) (V m c main_v3) (V m c main_v6) (V m c main_v4)) hj).trans ?_
  refine (BlockValue.out_apply (iblk m c 0 t) (V m c main_v1) (V m c main_v2) (V m c main_v5) (V m c main_v3) (V m c main_v6) (V m c main_v4) _ _).trans ?_
  refine ((rows_apply (V m c main_v0) (V m c main_v1) (V m c main_v2) (V m c main_v5) (V m c main_v3) (V m c main_v6) (V m c main_v4)
    (((cfg0.win 7).blk t).view.emb j) (⟨win0_7.index t (0 : Fin 2) * 256 + (j 0).val, by omega⟩ : Fin 8192) (⟨(j 1).val, hj1⟩ : Fin 1024)
    (show win0_7.index t (0 : Fin 2) * 256 + 1 * (j 0).val = win0_7.index t (0 : Fin 2) * 256 + (j 0).val by omega)
    (show win0_7.index t (1 : Fin 2) * 1024 + 1 * (j 1).val = (j 1).val by omega)).trans ?_).symm
  refine congrArg (fun x => rowOut x _ _ _ _ _ _ _) (funext fun k => ?_)
  exact (blk0 m c t _ k _ rfl).symm

/-- An index of the rows' array is in point `t`'s block iff each coordinate is in the block's range on its axis. -/
theorem mem_blk (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v7).slice (win0_7.rect t)).set ↔ _
  rw [View.set_slice_whole, Rect.mem_set_unit]
  exact Iff.rfl

/-- Every row is in some point's block: row `r` in the block of point `r / 256`. -/
theorem cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := idx_onto ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- THE ROWS' ARRAY after the run. -/
theorem final (c : Dev nD) : (dats m 0 c).arrAt 7 cfg0.N = rowsAt m c :=
  (dats m 0 c).arrAt_eq_of_cover 7 (rowsAt m c) (fun t _ => flushed_eq m c t) cover

end Cert.KernelIdeal.ArrayValue

end
-- ==== Proof.ProgramValue.lean ====
/-
  The kernel's program from arguments to result: the reshapes and format changes around the rows' array, read at an
  index, and the run with its result named.
-/
import proofs.«133485_j13675175870789_1_alg».proof.Proof.ArrayValue
import proofs.«133485_j13675175870789_1_alg».proof.Proof.BlockSpec

set_option maxRecDepth 16384

noncomputable section

open scoped BigOperators

namespace Cert.KernelIdeal.ProgramValue

open Cert.KernelIdeal Cert.KernelIdeal.Gen Cert.KernelIdeal.ArrayValue Idealize.ShloMosaic Idealize.ShloMosaic.TcCoe Idealize.SL.Sem
open Idealize.ShloMosaic.ValueIdx Cert.Transition

variable (m : (ℓ : Loc nD τ sig) → Buf (Elt Ideal) ℓ) (ρ : Dev nD → PrngReg)

/-! ## The operands as the region finds them -/

/-- The token array is the activations with batch and sequence merged. -/
theorem V_tokens (c : Dev nD) :
    V m c main_v0 = shapeCast S8192x1024 (m ((c : Thread nD τ).loc main_arg0)) shapeCasts_S4x2048x1024_S8192x1024 := by
  show StableHlo.after hostOps0 (fun b => m (c, b)) (Proc.devRef .tc main_v0) = _
  after_results; rfl
/-- The gain, the offset and the two biases get a leading unit axis. -/
theorem V_gain (c : Dev nD) :
    V m c main_v1 = shapeCast S1x1024 (m ((c : Thread nD τ).loc main_arg2)) shapeCasts_S1024_S1x1024 := by
  show StableHlo.after hostOps0 (fun b => m (c, b)) (Proc.devRef .tc main_v1) = _
  after_results; rfl
theorem V_offset (c : Dev nD) :
    V m c main_v2 = shapeCast S1x1024 (m ((c : Thread nD τ).loc main_arg3)) shapeCasts_S1024_S1x1024 := by
  show StableHlo.after hostOps0 (fun b => m (c, b)) (Proc.devRef .tc main_v2) = _
  after_results; rfl
theorem V_bias1 (c : Dev nD) :
    V m c main_v3 = shapeCast S1x4096 (m ((c : Thread nD τ).loc main_arg5)) shapeCasts_S4096_S1x4096 := by
  show StableHlo.after hostOps0 (fun b => m (c, b)) (Proc.devRef .tc main_v3) = _
  after_results; rfl
theorem V_bias2 (c : Dev nD) :
    V m c main_v4 = shapeCast S1x1024 (m ((c : Thread nD τ).loc main_arg7)) shapeCasts_S1024_S1x1024 := by
  show StableHlo.after hostOps0 (fun b => m (c, b)) (Proc.devRef .tc main_v4) = _
  after_results; rfl
/-- The two weight matrices change format only, which over the extended reals changes nothing. -/
theorem V_weight1 (c : Dev nD) : V m c main_v5 = m ((c : Thread nD τ).loc main_arg4) := by
  show StableHlo.after hostOps0 (fun b => m (c, b)) (Proc.devRef .tc main_v5) = _
  after_results; rfl
theorem V_weight2 (c : Dev nD) : V m c main_v6 = m ((c : Thread nD τ).loc main_arg6) := by
  show StableHlo.after hostOps0 (fun b => m (c, b)) (Proc.devRef .tc main_v6) = _
  after_results; rfl

/-! ## The operands read at an index -/

/-- Row `b · 2048 + s` of the token array is the token `(b, s)`. -/
theorem tokens_apply (c : Dev nD) (bb : Fin 4) (s : Fin 2048) (k : Fin 1024) (r : Fin 8192) (hr : r.val = bb.val * 2048 + s.val) :
    V m c main_v0 (ix2 r k) = (m ((c : Thread nD τ).loc main_arg0)) (ix3 bb s k) := by
  refine (congrFun (V_tokens m c) (ix2 r k)).trans ?_
  refine shapeCast_apply _ _ (ix2 r k) (ix3 bb s k) ?_
  rw [Shape.rowMajor_val_three, Shape.rowMajor_val_two]
  show (bb.val * 2048 + s.val) * 1024 + k.val = r.val * 1024 + k.val
  rw [hr]
theorem gain_apply (c : Dev nD) (k : Fin 1024) : V m c main_v1 (ix2 (0 : Fin 1) k) = (m ((c : Thread nD τ).loc main_arg2)) (ix1 k) :=
  (congrFun (V_gain m c) _).trans (shapeCast_a_1a_apply _ _ 0 k)
theorem offset_apply (c : Dev nD) (k : Fin 1024) : V m c main_v2 (ix2 (0 : Fin 1) k) = (m ((c : Thread nD τ).loc main_arg3)) (ix1 k) :=
  (congrFun (V_offset m c) _).trans (shapeCast_a_1a_apply _ _ 0 k)
theorem bias1_apply (c : Dev nD) (n : Fin 4096) : V m c main_v3 (ix2 (0 : Fin 1) n) = (m ((c : Thread nD τ).loc main_arg5)) (ix1 n) :=
  (congrFun (V_bias1 m c) _).trans (shapeCast_a_1a_apply _ _ 0 n)
theorem bias2_apply (c : Dev nD) (k : Fin 1024) : V m c main_v4 (ix2 (0 : Fin 1) k) = (m ((c : Thread nD τ).loc main_arg7)) (ix1 k) :=
  (congrFun (V_bias2 m c) _).trans (shapeCast_a_1a_apply _ _ 0 k)

/-- The block's output depends on its seven arguments entry by entry. -/
theorem rowOut_congr {x x' g g' b b' : Fin 1024 → EReal} {w1 w1' : Fin 1024 → Fin 4096 → EReal} {b1 b1' : Fin 4096 → EReal}
    {w2 w2' : Fin 4096 → Fin 1024 → EReal} {b2 b2' : Fin 1024 → EReal} (c : Fin 1024)
    (hx : ∀ k, x k = x' k) (hg : ∀ k, g k = g' k) (hb : ∀ k, b k = b' k) (hw1 : ∀ k n, w1 k n = w1' k n)
    (hb1 : ∀ n, b1 n = b1' n) (hw2 : ∀ n k, w2 n k = w2' n k) (hb2 : ∀ k, b2 k = b2' k) :
    rowOut x g b w1 b1 w2 b2 c = rowOut x' g' b' w1' b1' w2' b2' c := by
  obtain rfl : x = x' := funext hx
  obtain rfl : g = g' := funext hg
  obtain rfl : b = b' := funext hb
  obtain rfl : w1 = w1' := funext fun k => funext (hw1 k)
  obtain rfl : b1 = b1' := funext hb1
  obtain rfl : w2 = w2' := funext fun n => funext (hw2 n)
  obtain rfl : b2 = b2' := funext hb2
  rfl

/-! ## From the rows' array to the result -/

/-- The rows' outputs, with the rows split back into batch and sequence, are the block's output over the batch. -/
theorem result_eq (c : Dev nD) :
    shapeCast S4x2048x1024 (rowsAt m c) shapeCasts_S8192x1024_S4x2048x1024
      = blockOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := funext fun i => by
  have h0 : (i 0).val < 4 := (i 0).isLt
  have h1 : (i 1).val < 2048 := (i 1).isLt
  have h2 : (i 2).val < 1024 := (i 2).isLt
  refine (shapeCast_apply (rowsAt m c) shapeCasts_S8192x1024_S4x2048x1024 i
    (ix2 (⟨(i 0).val * 2048 + (i 1).val, by omega⟩ : Fin 8192) (⟨(i 2).val, h2⟩ : Fin 1024)) ?_).trans ?_
  · rw [Shape.rowMajor_val_three, Shape.rowMajor_val_two]; rfl
  refine (rows_apply _ _ _ _ _ _ _ _ _ _ rfl rfl).trans ?_
  unfold blockOut
  exact rowOut_congr _ (fun k => tokens_apply m c ⟨(i 0).val, h0⟩ ⟨(i 1).val, h1⟩ k _ rfl) (gain_apply m c) (offset_apply m c)
    (fun k n => congrFun (V_weight1 m c) (ix2 k n)) (bias1_apply m c) (fun n k => congrFun (V_weight2 m c) (ix2 n k)) (bias2_apply m c)

/-- The program's result is the reshape of the rows' array after the region. -/
theorem tail_eq (c : Dev nD) :
    Pipeline.afterTail₀ cfgs (dats m) 0 (V0 m) [hostOps1] c main_v8
      = shapeCast S4x2048x1024 (rowsAt m c) shapeCasts_S8192x1024_S4x2048x1024 := by
  have hw : Pipeline.withArrays (cfgs 0).spec c (V0 m c) (fun w => (dats m 0 c).arrAt w (cfgs 0).N) (Proc.devRef .tc main_v7) = rowsAt m c :=
    (Pipeline.withArrays_arr spec0 launch0.win.arr_inj c _ _ 7).trans (final m c)
  unfold Pipeline.afterTail₀
  show StableHlo.after hostOps1 _ (Proc.devRef .tc main_v8) = _
  after_results
  rw [hw]
  rfl

/-! ## The run -/

/-- Every weakly fair execution of the kernel's program terminates with its result at the block's output over the
    batch, a function of the argument arrays, and the arguments unchanged. -/
theorem run : θ_run defs (onTc (τ := τ) (main (F := Ideal))) ⟨m, fun _ => 0, ρ⟩ fun r => ∀ c : Dev nD,
      r.2.mem ((c.tc : Thread nD τ).loc main_v8)
        = blockOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(((h c).2 main_v8 (Pipeline.mem_restRefs_of main_v8 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.ProgramValue

end
-- ==== Proof.RefValue.lean ====
/-
  The reference, one token at a time: its result at `(b, s, c)` is the transition block's output for the row
  `act[b, s, ·]`, channel `c`.
-/
import proofs.«133485_j13675175870789_1_alg».proof.Proof.Gen.ReferenceIdeal.Read
import proofs.«133485_j13675175870789_1_alg».proof.Proof.BlockSpec

noncomputable section

open scoped BigOperators

namespace Cert.ReferenceIdeal.RefValue

open Cert.ReferenceIdeal Cert.ReferenceIdeal.Read Idealize.ShloMosaic Idealize.ShloMosaic.ValueIdx Cert.Transition

variable (x0 : (⟨S4x2048x1024, .f32⟩ : BufTy).Contents (Elt Ideal)) (x2 x3 : (⟨S1024, .f32⟩ : BufTy).Contents (Elt Ideal))
  (x4 : (⟨S1024x4096, .f32⟩ : BufTy).Contents (Elt Ideal)) (x5 : (⟨S4096, .f32⟩ : BufTy).Contents (Elt Ideal))
  (x6 : (⟨S4096x1024, .f32⟩ : BufTy).Contents (Elt Ideal)) (x7 : (⟨S1024, .f32⟩ : BufTy).Contents (Elt Ideal))

/-- The row of token `(b, s)`. -/
abbrev row (bb : Fin 4) (s : Fin 2048) : Fin 1024 → EReal := fun k => x0 (ix3 bb s k)

/-- The kept-axis statistic of a token sits at `(b, s, 0)`; its summands are the token's channels. -/
theorem sumIdx (bb : Fin 4) (s : Fin 2048) (u : Fin 1) (k : Fin 1024) :
    idx_main_v0 (idx_main_v1 (ix3 bb s u)) k = ix3 bb s k :=
  funext fun a => Fin.ext (by match a with | ⟨0, _⟩ => rfl | ⟨1, _⟩ => rfl | ⟨2, _⟩ => rfl)

/-- A statistic broadcast along the channels is read, at any channel, at `(b, s, 0)`. -/
theorem statIdx (bb : Fin 4) (s : Fin 2048) (k : Fin 1024) :
    idx_main_v4 (ix3 bb s k) = ix3 bb s (0 : Fin 1) :=
  funext fun a => Fin.ext (by match a with | ⟨0, _⟩ => rfl | ⟨1, _⟩ => rfl | ⟨2, _⟩ => rfl)

/-- The mean column at a token is the row's mean. -/
theorem mean_apply (bb : Fin 4) (s : Fin 2048) (u : Fin 1) :
    val_main_v3 (F := Ideal) x0 (ix3 bb s u) = rowMean (row x0 bb s) := by
  rw [val_main_v3_apply, val_main_v1_apply, val_main_v0_apply, val_main_v2_apply, val_main_cst_0_apply, val_main_cst_apply]
  simp only [sumIdx, Ideal.ofBits_def, Ideal.hostDivf_def, Ideal.ofBits_zero_f32, zero_add]
  rfl

/-- The centred entry. -/
theorem centred_apply (bb : Fin 4) (s : Fin 2048) (k : Fin 1024) :
    val_main_v5 (F := Ideal) x0 (ix3 bb s k) = rowCentred (row x0 bb s) k := by
  rw [val_main_v5_apply, val_main_v4_apply, statIdx, mean_apply]
  rfl

theorem centred'_apply (bb : Fin 4) (s : Fin 2048) (k : Fin 1024) :
    val_main_v12 (F := Ideal) x0 (ix3 bb s k) = rowCentred (row x0 bb s) k := by
  rw [val_main_v12_apply, val_main_v11_apply]
  rw [show idx_main_v11 (ix3 bb s k) = ix3 bb s (0 : Fin 1) from statIdx bb s k, mean_apply]
  rfl

/-- The summands of the second statistic are the token's channels too. -/
theorem sumIdx' (bb : Fin 4) (s : Fin 2048) (u : Fin 1) (k : Fin 1024) :
    idx_main_v7 (idx_main_v8 (ix3 bb s u)) k = ix3 bb s k :=
  funext fun a => Fin.ext (by match a with | ⟨0, _⟩ => rfl | ⟨1, _⟩ => rfl | ⟨2, _⟩ => rfl)

/-- The variance column at a token is the row's variance. -/
theorem var_apply (bb : Fin 4) (s : Fin 2048) (u : Fin 1) :
    val_main_v10 (F := Ideal) x0 (ix3 bb s u) = rowVar (row x0 bb s) := by
  rw [val_main_v10_apply, val_main_v8_apply, val_main_v7_apply, val_main_v9_apply, val_main_cst_2_apply, val_main_cst_1_apply]
  simp only [sumIdx', val_main_v6_apply, centred_apply, Ideal.ofBits_def, Ideal.hostDivf_def, Ideal.mulf_def,
    Ideal.ofBits_zero_f32, zero_add]
  rfl

/-- An affine parameter broadcast over the tokens is read at its channel. -/
theorem gainIdx (bb : Fin 4) (s : Fin 2048) (k : Fin 1024) : idx_main_v18 (idx_main_v19 (ix3 bb s k)) = ix1 k :=
  funext fun a => Fin.ext (by match a with | ⟨0, _⟩ => rfl)
theorem offsetIdx (bb : Fin 4) (s : Fin 2048) (k : Fin 1024) : idx_main_v21 (idx_main_v22 (ix3 bb s k)) = ix1 k :=
  funext fun a => Fin.ext (by match a with | ⟨0, _⟩ => rfl)
theorem invStdIdx (bb : Fin 4) (s : Fin 2048) (k : Fin 1024) : idx_main_v16 (ix3 bb s k) = ix3 bb s (0 : Fin 1) :=
  funext fun a => Fin.ext (by match a with | ⟨0, _⟩ => rfl | ⟨1, _⟩ => rfl | ⟨2, _⟩ => rfl)

/-- The normalised entry. -/
theorem norm_apply (bb : Fin 4) (s : Fin 2048) (k : Fin 1024) :
    val_main_v23 (F := Ideal) x0 x2 x3 (ix3 bb s k)
      = rowNorm (row x0 bb s) (fun k => x2 (ix1 k)) (fun k => x3 (ix1 k)) k := by
  rw [val_main_v23_apply, val_main_v20_apply, val_main_v17_apply, val_main_v16_apply, invStdIdx, val_main_v15_apply,
    val_main_v14_apply, val_main_v13_apply, val_main_cst_3_apply, var_apply, centred'_apply, val_main_v19_apply,
    val_main_v18_apply, gainIdx, val_main_v22_apply, val_main_v21_apply, offsetIdx]
  rfl

/-- The operands of the first product at a token and a hidden channel. -/
theorem upLhsIdx (bb : Fin 4) (s : Fin 2048) (f : Fin 4096) (k : Fin 1024) : lidx_main_v24 (ix3 bb s f) k = ix3 bb s k :=
  funext fun a => Fin.ext (by match a with | ⟨0, _⟩ => rfl | ⟨1, _⟩ => rfl | ⟨2, _⟩ => rfl)
theorem upRhsIdx (bb : Fin 4) (s : Fin 2048) (f : Fin 4096) (k : Fin 1024) : ridx_main_v24 (ix3 bb s f) k = ix2 k f :=
  funext fun a => Fin.ext (by match a with | ⟨0, _⟩ => rfl | ⟨1, _⟩ => rfl)
theorem upBiasIdx (bb : Fin 4) (s : Fin 2048) (f : Fin 4096) : idx_main_v25 (idx_main_v26 (ix3 bb s f)) = ix1 f :=
  funext fun a => Fin.ext (by match a with | ⟨0, _⟩ => rfl)

/-- The hidden entry. -/
theorem hidden_apply (bb : Fin 4) (s : Fin 2048) (f : Fin 4096) :
    val_main_v28 (F := Ideal) x0 x2 x3 x4 x5 (ix3 bb s f)
      = rowHidden (row x0 bb s) (fun k => x2 (ix1 k)) (fun k => x3 (ix1 k)) (fun k n => x4 (ix2 k n)) (fun n => x5 (ix1 n)) f := by
  rw [val_main_v28_apply, val_main_v27_apply, val_main_v24_apply, val_main_v26_apply, val_main_v25_apply, upBiasIdx,
    val_main_call0_v0_apply, val_main_call0_cst_apply]
  simp only [upLhsIdx, upRhsIdx, norm_apply]
  rfl

/-- The operands of the second product at a token and an output channel. -/
theorem downLhsIdx (bb : Fin 4) (s : Fin 2048) (c : Fin 1024) (f : Fin 4096) : lidx_main_v29 (ix3 bb s c) f = ix3 bb s f :=
  funext fun a => Fin.ext (by match a with | ⟨0, _⟩ => rfl | ⟨1, _⟩ => rfl | ⟨2, _⟩ => rfl)
theorem downRhsIdx (bb : Fin 4) (s : Fin 2048) (c : Fin 1024) (f : Fin 4096) : ridx_main_v29 (ix3 bb s c) f = ix2 f c :=
  funext fun a => Fin.ext (by match a with | ⟨0, _⟩ => rfl | ⟨1, _⟩ => rfl)
theorem downBiasIdx (bb : Fin 4) (s : Fin 2048) (c : Fin 1024) : idx_main_v30 (idx_main_v31 (ix3 bb s c)) = ix1 c :=
  funext fun a => Fin.ext (by match a with | ⟨0, _⟩ => rfl)

/-- THE REFERENCE'S RESULT at `(b, s, c)`: the block's output for the token's row, channel `c`. -/
theorem result_apply (bb : Fin 4) (s : Fin 2048) (c : Fin 1024) :
    val_main_v32 (F := Ideal) x0 x2 x3 x4 x5 x6 x7 (ix3 bb s c)
      = rowOut (row x0 bb s) (fun k => x2 (ix1 k)) (fun k => x3 (ix1 k)) (fun k n => x4 (ix2 k n)) (fun n => x5 (ix1 n))
          (fun n c => x6 (ix2 n c)) (fun c => x7 (ix1 c)) c := by
  rw [val_main_v32_apply, val_main_v29_apply, val_main_v31_apply, val_main_v30_apply, downBiasIdx]
  simp only [downLhsIdx, downRhsIdx, hidden_apply]
  rfl

/-- THE REFERENCE'S RESULT is the block's output over the batch. -/
theorem result_eq : val_main_v32 (F := Ideal) x0 x2 x3 x4 x5 x6 x7 = blockOut x0 x2 x3 x4 x5 x6 x7 := funext fun i => by
  have hi : i = ix3 (⟨(i 0).val, (i 0).isLt⟩ : Fin 4) (⟨(i 1).val, (i 1).isLt⟩ : Fin 2048) (⟨(i 2).val, (i 2).isLt⟩ : Fin 1024) :=
    funext fun a => Fin.ext (by match a with | ⟨0, _⟩ => rfl | ⟨1, _⟩ => rfl | ⟨2, _⟩ => rfl)
  refine (congrArg (val_main_v32 (F := Ideal) x0 x2 x3 x4 x5 x6 x7) hi).trans ((result_apply x0 x2 x3 x4 x5 x6 x7 _ _ _).trans ?_)
  rfl

end Cert.ReferenceIdeal.RefValue

end
-- ==== Proof.lean ====
/-
  A transition block — layer normalisation, a linear map to four times the width, a clip below at zero, a linear map
  back — computed by a fused kernel over blocks of 256 tokens, against its plain reference over the whole batch.

  Over the extended reals both programs compute, for every token `(b, s)` and channel `c`, the same number
  (Proof/RowSpec.lean): the token's row is centred by its mean, scaled by the inverse square root of its variance plus
  the same small constant, mapped affinely, multiplied by the first weight matrix, shifted by the first bias, clipped
  below at zero, multiplied by the second weight matrix and shifted by the second bias. The two sides differ only in
  arrangement, which changes nothing over the extended reals: the kernel merges batch and sequence into 8192 rows and
  works on 32 blocks of 256 rows, passes its operands through a narrower float format, and accumulates each matrix
  product from zero; the reference divides and takes the inverse square root on the host and starts its sums from a
  zero that is added. No law is used that needs the inputs to be finite, so the precondition is never opened.

  * Proof/BlockPayload.lean: what the kernel body stores for a block, entry by entry, is the block's rows' outputs.
  * Proof/ArrayValue.lean: the 32 blocks tile the rows' array, so after the run the array is the rows' outputs.
  * Proof/ProgramValue.lean: the reshapes and format changes around the region, and the kernel program's run.
  * Proof/RefValue.lean: the reference's result, read one operation at a time, is the same function.
-/
import proofs.«133485_j13675175870789_1_alg».proof.Defs
import proofs.«133485_j13675175870789_1_alg».proof.Proof.Gen.Kernel
import proofs.«133485_j13675175870789_1_alg».proof.Proof.Gen.Kernel.Skeleton
import proofs.«133485_j13675175870789_1_alg».proof.Proof.Gen.Kernel.Launch
import proofs.«133485_j13675175870789_1_alg».proof.Proof.Gen.Kernel.Points
import proofs.«133485_j13675175870789_1_alg».proof.Proof.Gen.Kernel.Frame
import proofs.«133485_j13675175870789_1_alg».proof.Proof.Gen.KernelIdeal
import proofs.«133485_j13675175870789_1_alg».proof.Proof.Gen.KernelIdeal.Skeleton
import proofs.«133485_j13675175870789_1_alg».proof.Proof.Gen.KernelIdeal.Launch
import proofs.«133485_j13675175870789_1_alg».proof.Proof.Gen.KernelIdeal.Points
import proofs.«133485_j13675175870789_1_alg».proof.Proof.Gen.KernelIdeal.Frame
import proofs.«133485_j13675175870789_1_alg».proof.Proof.Gen.ReferenceIdeal
import proofs.«133485_j13675175870789_1_alg».proof.Proof.Gen.Pre_finite_inputs
import proofs.«133485_j13675175870789_1_alg».proof.Proof.Gen.ReferenceIdeal.Run
import proofs.«133485_j13675175870789_1_alg».proof.Proof.Gen.ReferenceIdeal.Read
import proofs.«133485_j13675175870789_1_alg».proof.Proof.ProgramValue
import proofs.«133485_j13675175870789_1_alg».proof.Proof.RefValue
import Idealize.ShloMosaic.Adequacy
import Idealize.ShloMosaic.Init

noncomputable section

namespace Cert.Proof

open Idealize.ShloMosaic Idealize.SL.Sem Cert.Transition

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on the arguments both programs end with the block's output over the batch. -/
theorem algebraic : Cert.algebraic_KernelIdeal_ReferenceIdeal := by
  intro m ρ m' ρ' _ hagree
  refine ⟨fun c => blockOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ProgramValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, a3, a4, a5, a6, a7⟩ := hagree c
  rw [Cert.ReferenceIdeal.Read.val_main_v32_eq, Cert.ReferenceIdeal.RefValue.result_eq, a0, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
